-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S2x2048x4096 .f32) (main_arg1 : IVec S16384x4096 32) (main_arg2 : FVec F S16384 .f32) (main_arg3 : FVec F S256 .f32) (main_arg4 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S67108864 : Shape := ⟨1, ![67108864]⟩
abbrev S_ : Shape := ⟨0, ![]⟩
abbrev S67108864x1 : Shape := ⟨2, ![67108864, 1]⟩
abbrev S16384x1 : Shape := ⟨2, ![16384, 1]⟩
abbrev S4096x4096 : Shape := ⟨2, ![4096, 4096]⟩
abbrev S1x16384 : Shape := ⟨2, ![1, 16384]⟩
abbrev S4096x16384 : Shape := ⟨2, ![4096, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩
abbrev S2x2048x16384 : Shape := ⟨3, ![2, 2048, 16384]⟩

abbrev nBuf : Space → Nat
  | .hbm => 25
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S67108864, .i32⟩
  | .hbm, ⟨6, _⟩ => ⟨S_, .i32⟩
  | .hbm, ⟨7, _⟩ => ⟨S67108864, .i32⟩
  | .hbm, ⟨8, _⟩ => ⟨S67108864, .i1⟩
  | .hbm, ⟨9, _⟩ => ⟨S_, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864x1, .i32⟩
  | .hbm, ⟨14, _⟩ => ⟨S67108864, .f32⟩
  | .hbm, ⟨15, _⟩ => ⟨S16384x4096, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .bf16⟩
  | .hbm, ⟨20, _⟩ => ⟨S4096x4096, .f32⟩
  | .hbm, ⟨21, _⟩ => ⟨S4096x4096, .bf16⟩
  | .hbm, ⟨22, _⟩ => ⟨S1x16384, .f32⟩
  | .hbm, ⟨23, _⟩ => ⟨S4096x16384, .f32⟩
  | .hbm, ⟨24, _⟩ => ⟨S2x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x4096_S67108864 : S16384x4096.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S16384x4096 : S67108864.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bitsLt_bf16_f32 : FTy.bits .bf16 < FTy.bits .f32
  shapeCasts_S2x2048x4096_S4096x4096 : S2x2048x4096.ShapeCasts S4096x4096
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S4096x16384_S2x2048x16384 : S4096x16384.ShapeCasts S2x2048x16384
  gather_S256_S67108864x1_S67108864_n_0_n_n_0_1_1_wf : GatherDims.WF S256 S67108864x1 S67108864 [] [0] [] [0] [] 1 ![1]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x16384.size a
  hwx0_3 : ∀ i : grid0.Coords, EltTy.bits .f32 = 32 ∨ (Rect.block (s := S4096x16384) S512x1024.size (cc0_transform_3 i) (hinb0_3 i)).WholeWords (EltTy.packing .f32)

variable [Facts₀]

def gather_S256_S67108864x1_S67108864_n_0_n_n_0_1_1 : GatherDims S256 S67108864x1 S67108864 where
  offsetDims := []
  collapsedSliceDims := [0]
  operandBatchingDims := []
  startIndicesBatchingDims := []
  startIndexMap := [0]
  indexVectorDim := 1
  sliceSizes := ![1]
  wf := gather_S256_S67108864x1_S67108864_n_0_n_n_0_1_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S67108864 : Shape := ⟨1, ![67108864]⟩
abbrev S_ : Shape := ⟨0, ![]⟩
abbrev S67108864x1 : Shape := ⟨2, ![67108864, 1]⟩
abbrev S16384x1 : Shape := ⟨2, ![16384, 1]⟩
abbrev S2x2048x16384 : Shape := ⟨3, ![2, 2048, 16384]⟩
abbrev S1x1x16384 : Shape := ⟨3, ![1, 1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S67108864, .i32⟩
  | .hbm, ⟨6, _⟩ => ⟨S_, .i32⟩
  | .hbm, ⟨7, _⟩ => ⟨S67108864, .i32⟩
  | .hbm, ⟨8, _⟩ => ⟨S67108864, .i1⟩
  | .hbm, ⟨9, _⟩ => ⟨S_, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864x1, .i32⟩
  | .hbm, ⟨14, _⟩ => ⟨S67108864, .f32⟩
  | .hbm, ⟨15, _⟩ => ⟨S16384x4096, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S2x2048x16384, .f32⟩
  | .hbm, ⟨20, _⟩ => ⟨S1x1x16384, .f32⟩
  | .hbm, ⟨21, _⟩ => ⟨S2x2048x16384, .f32⟩
  | .hbm, ⟨22, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S16384x4096_S67108864 : S16384x4096.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S16384x4096 : S67108864.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  gather_S256_S67108864x1_S67108864_n_0_n_n_0_1_1_wf : GatherDims.WF S256 S67108864x1 S67108864 [] [0] [] [0] [] 1 ![1]
  dot_S2x2048x4096_S16384x4096_S2x2048x16384_2_1_01_0_n_n_wf : DotDims.WF S2x2048x4096 S16384x4096 S2x2048x16384 [2] [1] [0, 1] [0] [] []

variable [Facts₀]

def gather_S256_S67108864x1_S67108864_n_0_n_n_0_1_1 : GatherDims S256 S67108864x1 S67108864 where
  offsetDims := []
  collapsedSliceDims := [0]
  operandBatchingDims := []
  startIndicesBatchingDims := []
  startIndexMap := [0]
  indexVectorDim := 1
  sliceSizes := ![1]
  wf := gather_S256_S67108864x1_S67108864_n_0_n_n_0_1_1_wf
def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.KernelBlock.lean ====
/-
  One grid point's output block, entry by entry, at the ideal values.

  The body of the kernel loads a 512 × 4096 block of activations, a 1024 × 4096 block of weights and a 1 × 1024
  strip of the bias, contracts the two blocks over their shared second axis into a zero accumulator and adds the
  strip to every row.  Read at the ideal values, entry (p, q) of what it stores is therefore

      Σ_k  x[p, k] · w[q, k]  +  b[0, q]

  — row p of the activations against row q of the weights, plus the bias of column q.  Neither narrowing nor the
  order of the contraction is left in that sum.
-/
import proofs.«167202_j90589450207298_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The contraction's operand indices, axis by axis

The product contracts axis 1 of both operands and keeps axis 0 of each: at output index (p, q) and contraction
index k the left operand is read at (p, k) and the right at (q, k). -/

theorem lhs_axis0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl

theorem lhs_axis1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q

theorem rhs_axis0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl

theorem rhs_axis1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product of the two blocks into the zero accumulator, at (p, q): row p against row q. -/
theorem product_apply (l : FVec Ideal S512x4096 .bf16) (r : FVec Ideal S1024x4096 .bf16) (p : Fin 512) (q : Fin 1024) :
    matmul dot_S512x4096_S1024x4096_S512x1024_1_1_0_0_n_n none l r (constant S512x1024 .f32 0x00000000#32) (ix2 p q)
      = ∑ k : Fin 4096, l (ix2 p k) * r (ix2 q k) := by
  show FloatOps.matmul dot_S512x4096_S1024x4096_S512x1024_1_1_0_0_n_n none l r (constant S512x1024 .f32 0x00000000#32) (ix2 p q) = _
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- What the body stores, at (p, q): the contraction of row p with row q, plus the bias strip at q. -/
theorem stored_apply (x : Vec Ideal S512x4096 .bf16) (w : Vec Ideal S1024x4096 .bf16) (b : Vec Ideal S1x1024 .f32)
    (p : Fin 512) (q : Fin 1024) :
    k0_pay1 (F := Ideal) x w b (ix2 p q) = (∑ k : Fin 4096, x (ix2 p k) * w (ix2 q k)) + b (ix2 (0 : Fin 1) q) := by
  unfold k0_pay1
  rw [shapeCast_self, shapeCast_self, shapeCast_self, addf_apply, product_apply, broadcastTo_1b_ab_apply]

end Cert.KernelIdeal.Block

end
-- ==== Proof.KernelArray.lean ====
/-
  The kernel's result array after the whole grid, at the ideal values.

  The grid has 8 × 16 points.  Point (i, j) reads rows 512·i … 512·i + 511 of the activations X, rows
  1024·j … 1024·j + 1023 of the weights W and columns 1024·j … of the one-row bias B, and writes the
  512 × 1024 block at (512·i, 1024·j) of the result.  Since the body's entry (p, q) is row p of its
  activation block against row q of its weight block plus the bias at q, every block is the restriction of ONE
  function of the three arrays,

      lin X W B (r, n) = Σ_k X[r, k] · W[n, k] + B[0, n],

  and the 128 blocks tile the result: the array ends holding `lin X W B`.
-/
import proofs.«167202_j90589450207298_1_alg».proof.Proof.Gen.KernelIdeal.Frame
import proofs.«167202_j90589450207298_1_alg».proof.Proof.KernelBlock

set_option maxRecDepth 16384

noncomputable section

open scoped BigOperators

namespace Cert.KernelIdeal.Arr

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat Cfg Window)

/-- Every row of the activations against every row of the weights, plus the bias of the weight row. -/
def lin (X : S4096x4096.Idx → EReal) (Wm : S16384x4096.Idx → EReal) (B : S1x16384.Idx → EReal) : S4096x16384.Idx → EReal :=
  fun i => (∑ k : Fin 4096, X (ix2 (i 0) k) * Wm (ix2 (i 1) k)) + B (ix2 (0 : Fin 1) (i 1))

/-- A block of the body's stores is a block of `lin`: if the three loaded blocks are the arrays read at block row
    `i0` and block column `j0`, then entry `j` of what is stored is `lin` at the entry's place in the array. -/
theorem stored_eq_lin (X : S4096x4096.Idx → EReal) (Wm : S16384x4096.Idx → EReal) (B : S1x16384.Idx → EReal)
    (x : Vec Ideal S512x4096 .bf16) (w : Vec Ideal S1024x4096 .bf16) (b : Vec Ideal S1x1024 .f32) (i0 j0 : ℕ)
    (hx : ∀ (y : S512x4096.Idx) (z : S4096x4096.Idx), (z 0).val = i0 * 512 + (y 0).val → (z 1).val = (y 1).val → x y = X z)
    (hw : ∀ (y : S1024x4096.Idx) (z : S16384x4096.Idx), (z 0).val = j0 * 1024 + (y 0).val → (z 1).val = (y 1).val → w y = Wm z)
    (hb : ∀ (y : S1x1024.Idx) (z : S1x16384.Idx), (z 1).val = j0 * 1024 + (y 1).val → b y = B z)
    (j : S512x1024.Idx) (i : S4096x16384.Idx) (h0 : (i 0).val = i0 * 512 + (j 0).val) (h1 : (i 1).val = j0 * 1024 + (j 1).val) :
    k0_pay1 (F := Ideal) x w b j = lin X Wm B i := by
  obtain ⟨p, q, rfl⟩ : ∃ (p : Fin 512) (q : Fin 1024), j = ix2 p q := ⟨j 0, j 1, eq_ix2 j⟩
  rw [stored_apply]
  unfold lin
  congr 1
  · refine Finset.sum_congr rfl fun k _ => ?_
    rw [hx (ix2 p k) (ix2 (i 0) k) h0 rfl, hw (ix2 q k) (ix2 (i 1) k) h1 rfl]
  · exact hb (ix2 (0 : Fin 1) q) (ix2 (0 : Fin 1) (i 1)) h1

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the activations' block row is the result's, the weights' block row and the
    bias's block column are the result's block column, and nothing else moves. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every block of the result is some point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- What point `t` writes back is block `t` of `lin` of the three arrays as the region finds them. -/
theorem flushed_eq (c : Dev nD) (t : Fin cfg0.N) :
    (dats m 0 c).flushed 3 t = ((cfg0.win 3).blk t).view.read (Elt Ideal) (lin (V m c main_v14) (V m c main_v12) (V m c main_v15)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S1024x4096) zero_offsets, View.ld_unit_zero (S := S1x1024) zero_offsets]
  obtain ⟨e0, e1, e2, e3, e4, e5, e6, e7⟩ := idx_facts t
  funext j
  show k0_pay1 (F := Ideal) (iblk m c 0 t) (iblk m c 1 t) (iblk m c 2 t) j
    = lin (V m c main_v14) (V m c main_v12) (V m c main_v15) (((cfg0.win 3).blk t).view.emb j)
  refine stored_eq_lin (V m c main_v14) (V m c main_v12) (V m c main_v15) (iblk m c 0 t) (iblk m c 1 t) (iblk m c 2 t)
    (win0_3.index t (0 : Fin 2)) (win0_3.index t (1 : Fin 2)) ?_ ?_ ?_ j (((cfg0.win 3).blk t).view.emb j) ?_ ?_
  · intro y z h0 h1
    show V m c main_v14 (((cfg0.win 0).blk t).view.emb y) = V m c main_v14 z
    refine congrArg (V m c main_v14) (funext fun a => Fin.ext ?_)
    match a with
    | ⟨0, _⟩ => show win0_0.index t (0 : Fin 2) * 512 + 1 * (y 0).val = (z 0).val; omega
    | ⟨1, _⟩ => show win0_0.index t (1 : Fin 2) * 4096 + 1 * (y 1).val = (z 1).val; omega
  · intro y z h0 h1
    show V m c main_v12 (((cfg0.win 1).blk t).view.emb y) = V m c main_v12 z
    refine congrArg (V m c main_v12) (funext fun a => Fin.ext ?_)
    match a with
    | ⟨0, _⟩ => show win0_1.index t (0 : Fin 2) * 1024 + 1 * (y 0).val = (z 0).val; omega
    | ⟨1, _⟩ => show win0_1.index t (1 : Fin 2) * 4096 + 1 * (y 1).val = (z 1).val; omega
  · intro y z h1
    show V m c main_v15 (((cfg0.win 2).blk t).view.emb y) = V m c main_v15 z
    refine congrArg (V m c main_v15) (funext fun a => Fin.ext ?_)
    match a with
    | ⟨0, _⟩ =>
      show win0_2.index t (0 : Fin 2) * 1 + 1 * (y 0).val = (z 0).val
      have hy : (y 0).val < 1 := (y 0).isLt
      have hz : (z 0).val < 1 := (z 0).isLt
      omega
    | ⟨1, _⟩ => show win0_2.index t (1 : Fin 2) * 1024 + 1 * (y 1).val = (z 1).val; omega
  · show win0_3.index t (0 : Fin 2) * 512 + 1 * (j 0).val = win0_3.index t (0 : Fin 2) * 512 + (j 0).val; omega
  · show win0_3.index t (1 : Fin 2) * 1024 + 1 * (j 1).val = win0_3.index t (1 : Fin 2) * 1024 + (j 1).val; omega

/-- An index of the result is in point `t`'s block iff each coordinate is in the block's range on its axis. -/
theorem mem_blk (t : Fin cfg0.N) (i : S4096x16384.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v16).slice (win0_3.rect t)).set ↔ _
  rw [View.set_slice_whole, Rect.mem_set_unit]
  exact Iff.rfl

/-- The 128 blocks tile the result: entry (r, n) lies in the block of the point with block row r / 512 and block
    column n / 1024. -/
theorem covered (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The result array after the run is `lin` of the three arrays the region was given. -/
theorem final (c : Dev nD) :
    (dats m 0 c).arrAt 3 cfg0.N = lin (V m c main_v14) (V m c main_v12) (V m c main_v15) :=
  (dats m 0 c).arrAt_eq_of_cover 3 (lin (V m c main_v14) (V m c main_v12) (V m c main_v15)) (fun t _ => flushed_eq m c t) covered

end Cert.KernelIdeal.Arr

end
-- ==== Proof.KernelRun.lean ====
/-
  The kernel's whole program, at the ideal values: what @main returns as a function of its five arguments.

  Before the grid runs, the host reshapes the activations [2, 2048, 4096] to [4096, 4096] (row 2048·b + s is
  x[b, s, ·]), dequantizes the weights (a table lookup scaled row by row — kept as one array, `weights`), narrows
  both (no change at the ideal values) and lays the bias out as one row.  The grid leaves `lin` of those three
  arrays, and the host reshapes it back to [2, 2048, 16384].  Entry (b, s, o) of the result is therefore

      Σ_k x[b, s, k] · weights[o, k] + bias[o].
-/
import proofs.«167202_j90589450207298_1_alg».proof.Proof.KernelArray
import Idealize.ShloMosaic.Lib.StableHlo.Run

set_option maxRecDepth 16384

noncomputable section

open scoped BigOperators

namespace Cert.KernelIdeal.Whole

open Cert.KernelIdeal Cert.KernelIdeal.Gen Cert.KernelIdeal.Arr
open Idealize.ShloMosaic Idealize.ShloMosaic.TcCoe Idealize.ShloMosaic.ValueIdx Idealize.SL.Sem Idealize.ShloMosaic.StableHlo

/-- The dequantized weights: each stored byte looked up in the code table (a negative index wrapped by the table's
    length first), scaled by its row's factor. -/
def weights {F : FTy → Type} [FloatOps F] (x1 : (⟨S16384x4096, .i32⟩ : BufTy).Contents (Elt F)) (x2 : (⟨S16384, .f32⟩ : BufTy).Contents (Elt F))
    (x3 : (⟨S256, .f32⟩ : BufTy).Contents (Elt F)) : (⟨S16384x4096, .f32⟩ : BufTy).Contents (Elt F) :=
  mulf (shapeCast _ (Host.gather gather_S256_S67108864x1_S67108864_n_0_n_n_0_1_1 (x3) (broadcastInDim S67108864x1 ![0] bcast_S67108864_S67108864x1_0 (select (cmpi .slt (shapeCast _ (x1) shapeCasts_S16384x4096_S67108864) (broadcastInDim S67108864 ![] bcast_S_S67108864 (constantI S_ 32 0#32))) (addi (shapeCast _ (x1) shapeCasts_S16384x4096_S67108864) (broadcastInDim S67108864 ![] bcast_S_S67108864 (constantI S_ 32 256#32))) (shapeCast _ (x1) shapeCasts_S16384x4096_S67108864)))) shapeCasts_S67108864_S16384x4096) (broadcastInDim S16384x4096 ![0, 1] bcast_S16384x1_S16384x4096_0_1 (broadcastInDim S16384x1 ![0] bcast_S16384_S16384x1_0 (x2)))

/-- What @main returns: the grid's `lin` of the reshaped activations, the dequantized weights and the bias row,
    reshaped to three axes. -/
def result (x0 : (⟨S2x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S256, .f32⟩ : BufTy).Contents (Elt Ideal))
    (x4 : (⟨S16384, .f32⟩ : BufTy).Contents (Elt Ideal)) : (⟨S2x2048x16384, .f32⟩ : BufTy).Contents (Elt Ideal) :=
  shapeCast S2x2048x16384
    (lin (truncf (F := Ideal) .bf16 (shapeCast S4096x4096 x0 shapeCasts_S2x2048x4096_S4096x4096) bitsLt_bf16_f32)
      (truncf (F := Ideal) .bf16 (weights (F := Ideal) x1 x2 x3) bitsLt_bf16_f32)
      (shapeCast S1x16384 x4 shapeCasts_S16384_S1x16384))
    shapeCasts_S4096x16384_S2x2048x16384

/-- Entry (b, s, o) of the result. -/
theorem result_apply (x0 : (⟨S2x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S256, .f32⟩ : BufTy).Contents (Elt Ideal))
    (x4 : (⟨S16384, .f32⟩ : BufTy).Contents (Elt Ideal)) (b : Fin 2) (s : Fin 2048) (o : Fin 16384) :
    result x0 x1 x2 x3 x4 (ix3 b s o)
      = (∑ k : Fin 4096, x0 (ix3 b s k) * weights (F := Ideal) x1 x2 x3 (ix2 o k)) + x4 (ix1 o) := by
  have hr : b.val * 2048 + s.val < 4096 := by have := b.isLt; have := s.isLt; omega
  unfold result
  rw [shapeCast_apply _ shapeCasts_S4096x16384_S2x2048x16384 (ix3 b s o) (ix2 (⟨b.val * 2048 + s.val, hr⟩ : Fin 4096) o)
    (by rw [Shape.rowMajor_val_two, Shape.rowMajor_val_three]; rfl)]
  unfold lin
  congr 1
  · refine Finset.sum_congr rfl fun k _ => ?_
    rw [truncf_apply, truncf_apply]
    congr 1
    exact shapeCast_apply x0 shapeCasts_S2x2048x4096_S4096x4096 _ (ix3 b s k)
      (by rw [Shape.rowMajor_val_two, Shape.rowMajor_val_three]; rfl)
  · exact shapeCast_apply x4 shapeCasts_S16384_S1x16384 _ (ix1 o)
      (by rw [Shape.rowMajor_val_two, Shape.rowMajor_val_one]; show o.val = 0 * 16384 + o.val; omega)

variable (m : (ℓ : Loc nD τ sig) → Buf (Elt Ideal) ℓ) (ρ : Dev nD → PrngReg)

/-- The activations as the grid finds them: reshaped to two axes and narrowed. -/
theorem entry_x (c : Dev nD) :
    (V m c main_v14 : S4096x4096.Idx → EReal)
      = truncf (F := Ideal) .bf16 (shapeCast S4096x4096 (m ((c.tc : Thread nD τ).loc main_arg0)) shapeCasts_S2x2048x4096_S4096x4096) bitsLt_bf16_f32 := by
  show StableHlo.after hostOps0 (fun b => m (c, b)) (Proc.devRef .tc main_v14) = _
  after_results
  rfl

/-- The weights as the grid finds them: dequantized and narrowed. -/
theorem entry_w (c : Dev nD) :
    (V m c main_v12 : S16384x4096.Idx → EReal)
      = truncf (F := Ideal) .bf16 (weights (F := Ideal) (m ((c.tc : Thread nD τ).loc main_arg1)) (m ((c.tc : Thread nD τ).loc main_arg2)) (m ((c.tc : Thread nD τ).loc main_arg3))) bitsLt_bf16_f32 := by
  show StableHlo.after hostOps0 (fun b => m (c, b)) (Proc.devRef .tc main_v12) = _
  after_results
  rfl

/-- The bias as the grid finds it: one row. -/
theorem entry_b (c : Dev nD) :
    (V m c main_v15 : S1x16384.Idx → EReal)
      = shapeCast S1x16384 (m ((c.tc : Thread nD τ).loc main_arg4)) shapeCasts_S16384_S1x16384 := by
  show StableHlo.after hostOps0 (fun b => m (c, b)) (Proc.devRef .tc main_v15) = _
  after_results
  rfl

/-- What the host's last reshape leaves in the result buffer. -/
theorem returned (c : Dev nD) :
    Pipeline.afterTail₀ cfgs (dats m) 0 (V0 m) [hostOps1] c main_v17
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = lin (V m c main_v14) (V m c main_v12) (V m c main_v15) :=
    (Pipeline.withArrays_arr spec0 launch0.win.arr_inj c _ _ 3).trans (final m c)
  rw [e, entry_x, entry_w, entry_b]
  rfl

/-- The kernel's program runs, returns `result` of its arguments and leaves the arguments as they were. -/
theorem run : θ_run defs (onTc (τ := τ) (main (F := Ideal))) ⟨m, fun _ => 0, ρ⟩ (fun r => ∀ c : Dev nD,
      r.2.mem ((c.tc : Thread nD τ).loc main_v17)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v17 (Pipeline.mem_restRefs_of main_v17 (by decide) (by decide))).trans (returned m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Whole

end
-- ==== Proof.RefValue.lean ====
/-
  The reference's result, entry by entry, at the ideal values.

  The reference contracts the last axis of the activations x[b, s, ·] with the last axis of the dequantized
  weights w[o, ·] and adds the bias broadcast along the two leading axes:

      result[b, s, o] = Σ_k x[b, s, k] · w[o, k] + bias[o].

  The dequantized weights enter only as an array; how they are gathered from the code table is not opened here.
-/
import proofs.«167202_j90589450207298_1_alg».proof.Proof.Gen.ReferenceIdeal.Run
import proofs.«167202_j90589450207298_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result at (b, s, o): row (b, s) of the activations against row o of the dequantized weights,
    plus the bias at o. -/
theorem result_apply (x0 : (⟨S2x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S256, .f32⟩ : BufTy).Contents (Elt Ideal))
    (x4 : (⟨S16384, .f32⟩ : BufTy).Contents (Elt Ideal)) (b : Fin 2) (s : Fin 2048) (o : Fin 16384) :
    val_main_v15 (F := Ideal) x0 x1 x2 x3 x4 (ix3 b s o)
      = (∑ k : Fin 4096, x0 (ix3 b s k) * val_main_v11 (F := Ideal) x1 x2 x3 (ix2 o k)) + x4 (ix1 o) := by
  have hl : ∀ k : Fin 4096, lidx_main_v12 (ix3 b s o) k = ix3 b s k := fun k => funext fun a => Fin.ext (by
    match a with
    | ⟨0, _⟩ => rfl
    | ⟨1, _⟩ => rfl
    | ⟨2, _⟩ => rfl)
  have hr : ∀ k : Fin 4096, ridx_main_v12 (ix3 b s o) k = ix2 o k := fun k => funext fun a => Fin.ext (by
    match a with
    | ⟨0, _⟩ => rfl
    | ⟨1, _⟩ => rfl)
  have hb : idx_main_v13 (idx_main_v14 (ix3 b s o)) = ix1 o := funext fun a => Fin.ext (by
    match a with
    | ⟨0, _⟩ => rfl)
  rw [val_main_v15_apply, val_main_v12_apply, val_main_v14_apply, val_main_v13_apply, hb]
  simp only [hl, hr]
  rfl

end Cert.ReferenceIdeal.RefValue

end
-- ==== Proof.lean ====
/-
  A blockwise-quantized linear layer, kernel against reference, over the extended reals.

  Both programs dequantize the weights the same way on the host — each stored byte looked up in a 256-entry
  code table and scaled by its row's factor — and both return, at (b, s, o),

      Σ_k x[b, s, k] · w[o, k] + bias[o].

  The kernel reshapes the activations to 4096 rows, narrows both operands (nothing at the ideal values), and
  computes the 4096 × 16384 product in 8 × 16 blocks of 512 × 1024, each block contracting the whole shared axis
  into a zero accumulator and adding its strip of the bias; the host reshapes the product back to three axes.
  The reference contracts the last axes of the two arrays directly and adds the bias broadcast.  The two sums
  run over the same index in the same order with the same factors, so no law of the extended reals is needed
  beyond reading each side at an index, and the inputs' finiteness is never used.

  The three frames are the generated ones (the reference's is its run with the result dropped); the kernel's
  idealization rewrote nothing, so `preserves` is trivial.
-/
import proofs.«167202_j90589450207298_1_alg».proof.Defs
import proofs.«167202_j90589450207298_1_alg».proof.Proof.Gen.Kernel
import proofs.«167202_j90589450207298_1_alg».proof.Proof.Gen.Kernel.Skeleton
import proofs.«167202_j90589450207298_1_alg».proof.Proof.Gen.Kernel.Launch
import proofs.«167202_j90589450207298_1_alg».proof.Proof.Gen.Kernel.Points
import proofs.«167202_j90589450207298_1_alg».proof.Proof.Gen.Kernel.Frame
import proofs.«167202_j90589450207298_1_alg».proof.Proof.Gen.KernelIdeal
import proofs.«167202_j90589450207298_1_alg».proof.Proof.Gen.KernelIdeal.Skeleton
import proofs.«167202_j90589450207298_1_alg».proof.Proof.Gen.KernelIdeal.Launch
import proofs.«167202_j90589450207298_1_alg».proof.Proof.Gen.KernelIdeal.Points
import proofs.«167202_j90589450207298_1_alg».proof.Proof.Gen.KernelIdeal.Frame
import proofs.«167202_j90589450207298_1_alg».proof.Proof.Gen.ReferenceIdeal
import proofs.«167202_j90589450207298_1_alg».proof.Proof.Gen.ReferenceIdeal.Run
import proofs.«167202_j90589450207298_1_alg».proof.Proof.Gen.ReferenceIdeal.Read
import proofs.«167202_j90589450207298_1_alg».proof.Proof.Gen.Pre_finite_inputs
import proofs.«167202_j90589450207298_1_alg».proof.Proof.KernelRun
import proofs.«167202_j90589450207298_1_alg».proof.Proof.RefValue
import Idealize.ShloMosaic.Adequacy
import Idealize.ShloMosaic.Init

noncomputable section

namespace Cert.Proof

open Idealize.ShloMosaic Idealize.ShloMosaic.ValueIdx Idealize.SL.Sem

/-- The two programs dequantize the weights by the same operations. -/
theorem weights_eq (x1 : (⟨Cert.ReferenceIdeal.S16384x4096, .i32⟩ : BufTy).Contents (Elt Ideal))
    (x2 : (⟨Cert.ReferenceIdeal.S16384, .f32⟩ : BufTy).Contents (Elt Ideal))
    (x3 : (⟨Cert.ReferenceIdeal.S256, .f32⟩ : BufTy).Contents (Elt Ideal)) :
    Cert.KernelIdeal.Whole.weights (F := Ideal) x1 x2 x3 = Cert.ReferenceIdeal.Read.val_main_v11 (F := Ideal) x1 x2 x3 := rfl

/-- What the kernel's program returns is what the reference's does: entry by entry the same sum. -/
theorem result_eq (x0 : (⟨Cert.ReferenceIdeal.S2x2048x4096, .f32⟩ : BufTy).Contents (Elt Ideal))
    (x1 : (⟨Cert.ReferenceIdeal.S16384x4096, .i32⟩ : BufTy).Contents (Elt Ideal))
    (x2 : (⟨Cert.ReferenceIdeal.S16384, .f32⟩ : BufTy).Contents (Elt Ideal))
    (x3 : (⟨Cert.ReferenceIdeal.S256, .f32⟩ : BufTy).Contents (Elt Ideal))
    (x4 : (⟨Cert.ReferenceIdeal.S16384, .f32⟩ : BufTy).Contents (Elt Ideal)) :
    Cert.ReferenceIdeal.Read.val_main_v15 (F := Ideal) x0 x1 x2 x3 x4 = Cert.KernelIdeal.Whole.result x0 x1 x2 x3 x4 := by
  funext i
  obtain ⟨b, s, o, rfl⟩ : ∃ (b : Fin 2) (s : Fin 2048) (o : Fin 16384), i = ix3 b s o := ⟨i 0, i 1, i 2, eq_ix3 i⟩
  rw [Cert.ReferenceIdeal.RefValue.result_apply, Cert.KernelIdeal.Whole.result_apply, weights_eq]

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq _ _ _ _ _).trans (result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
